-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S50000x64 .f32) (main_arg1 : IVec S2x800000 32) (main_arg2 : FVec F S800000 .f32) (main_arg3 : FVec F S64x64 .f32) (main_arg4 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg2
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S5000x64 : Shape := ⟨2, ![5000, 64]⟩
abbrev S850000x64 : Shape := ⟨2, ![850000, 64]⟩
abbrev S1x64 : Shape := ⟨2, ![1, 64]⟩

abbrev nBuf : Space → Nat
  | .hbm => 66
  | .vmem => 10
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S50000, .i32⟩
  | .hbm, ⟨6, _⟩ => ⟨S1x800000, .i32⟩
  | .hbm, ⟨7, _⟩ => ⟨S800000, .i32⟩
  | .hbm, ⟨8, _⟩ => ⟨S850000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S_, .f32⟩
  | .hbm, ⟨13, _⟩ => ⟨S50000, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x64, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x64, .f32⟩
  | .hbm, ⟨57, _⟩ => ⟨S850000x1, .f32⟩
  | .hbm, ⟨58, _⟩ => ⟨S850000x64, .f32⟩
  | .hbm, ⟨59, _⟩ => ⟨S850000x64, .f32⟩
  | .hbm, ⟨60, _⟩ => ⟨S_, .f32⟩
  | .hbm, ⟨61, _⟩ => ⟨S50000x64, .f32⟩
  | .hbm, ⟨62, _⟩ => ⟨S850000x1, .i32⟩
  | .hbm, ⟨63, _⟩ => ⟨S50000x64, .f32⟩
  | .hbm, ⟨64, _⟩ => ⟨S1x64, .f32⟩
  | .hbm, ⟨65, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x64_S64x64_S5000x64_1_0_0_1_n_n_wf : DotDims.WF S5000x64 S64x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S50000x64.size a
  hwx0_2 : ∀ i : grid0.Coords, EltTy.bits .f32 = 32 ∨ (Rect.block (s := S50000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S64 : Shape := ⟨1, ![64]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩

abbrev nBuf : Space → Nat
  | .hbm => 70
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000, .f32⟩
  | .hbm, ⟨3, _⟩ => ⟨S64x64, .f32⟩
  | .hbm, ⟨4, _⟩ => ⟨S64, .f32⟩
  | .hbm, ⟨5, _⟩ => ⟨S50000, .i32⟩
  | .hbm, ⟨6, _⟩ => ⟨S1x800000, .i32⟩
  | .hbm, ⟨7, _⟩ => ⟨S800000, .i32⟩
  | .hbm, ⟨8, _⟩ => ⟨S850000, .i32⟩
  | .hbm, ⟨9, _⟩ => ⟨S1x800000, .i32⟩
  | .hbm, ⟨10, _⟩ => ⟨S800000, .i32⟩
  | .hbm, ⟨11, _⟩ => ⟨S850000, .i32⟩
  | .hbm, ⟨12, _⟩ => ⟨S_, .f32⟩
  | .hbm, ⟨13, _⟩ => ⟨S50000, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S50000x64, .f32⟩
  | .hbm, ⟨48, _⟩ => ⟨S_, .i32⟩
  | .hbm, ⟨49, _⟩ => ⟨S850000, .i32⟩
  | .hbm, ⟨50, _⟩ => ⟨S850000, .i1⟩
  | .hbm, ⟨51, _⟩ => ⟨S_, .i32⟩
  | .hbm, ⟨52, _⟩ => ⟨S850000, .i32⟩
  | .hbm, ⟨53, _⟩ => ⟨S850000, .i32⟩
  | .hbm, ⟨54, _⟩ => ⟨S850000, .i32⟩
  | .hbm, ⟨55, _⟩ => ⟨S850000x1, .i32⟩
  | .hbm, ⟨56, _⟩ => ⟨S850000x64, .f32⟩
  | .hbm, ⟨57, _⟩ => ⟨S850000x1, .f32⟩
  | .hbm, ⟨58, _⟩ => ⟨S850000x64, .f32⟩
  | .hbm, ⟨59, _⟩ => ⟨S850000x64, .f32⟩
  | .hbm, ⟨60, _⟩ => ⟨S_, .f32⟩
  | .hbm, ⟨61, _⟩ => ⟨S50000x64, .f32⟩
  | .hbm, ⟨62, _⟩ => ⟨S850000x1, .i32⟩
  | .hbm, ⟨63, _⟩ => ⟨S50000x64, .f32⟩
  | .hbm, ⟨64, _⟩ => ⟨S1x64, .f32⟩
  | .hbm, ⟨65, _⟩ => ⟨S50000x64, .f32⟩
  | .hbm, ⟨66, _⟩ => ⟨S50000x64, .f32⟩
  | .hbm, ⟨67, _⟩ => ⟨S_, .f32⟩
  | .hbm, ⟨68, _⟩ => ⟨S50000x64, .f32⟩
  | .hbm, ⟨69, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_4 : Ref sig .tc := ⟨.hbm, 37, rfl⟩
abbrev main_v24 : Ref sig .tc := ⟨.hbm, 38, rfl⟩
abbrev main_v25 : Ref sig .tc := ⟨.hbm, 39, rfl⟩
abbrev main_c_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_c_6 : Ref sig .tc := ⟨.hbm, 48, rfl⟩
abbrev main_v33 : Ref sig .tc := ⟨.hbm, 49, rfl⟩
abbrev main_v34 : Ref sig .tc := ⟨.hbm, 50, rfl⟩
abbrev main_c_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_8 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_v49 : Ref sig .tc := ⟨.hbm, 69, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf

class Facts : Prop extends Facts₀ where

variable [Facts]
-- ==== Proof.Messages.lean ====
/-
  The message passing both programs do on the host, as functions of the edge list e : [2, 800000] (row 0 the sources,
  row 1 the targets), the edge weights w : [800000] and the transformed node features h : [50000, 64].

  Every node gets a self loop of weight one, so there are 850000 messages. The degree of a node is the sum of the
  weights of the messages that target it; its inverse square root is taken where the degree is positive and is zero
  elsewhere. A message from s to d of weight u carries the row h(s) scaled by dinv(s) · u · dinv(d), and the result
  row of a node is the sum of the messages that target it.

  Nothing here is opened by the certificate: the two programs apply these same operations, to the same edge list and
  weights, and differ only in how h was computed and in what is done with the result afterwards.
-/
import proofs.«146622_j55259049230850_1_alg».proof.Proof.Gen.KernelIdeal

noncomputable section

namespace Cert.KernelIdeal.Flow

open Cert.KernelIdeal Cert.KernelIdeal.Gen Idealize.ShloMosaic

variable {F : FTy → Type} [FloatOps F]

/-- The sources of the 850000 messages: row 0 of the edge list, then the self loops 0, 1, …, 49999. -/
def sources (e : (⟨S2x800000, .i32⟩ : BufTy).Contents (Elt F)) : (⟨S850000, .i32⟩ : BufTy).Contents (Elt F) :=
  concatenate S850000 0 [⟨S800000, shapeCast S800000 (extractStridedSlice S1x800000 ![0, 0] e slices_S2x800000_S1x800000_0_0) shapeCasts_S1x800000_S800000⟩, ⟨S50000, iotaInDim S50000 32 0⟩] concatenates_S800000_S50000_S850000_d0

/-- Their targets: row 1 of the edge list, then the same self loops. -/
def targets (e : (⟨S2x800000, .i32⟩ : BufTy).Contents (Elt F)) : (⟨S850000, .i32⟩ : BufTy).Contents (Elt F) :=
  concatenate S850000 0 [⟨S800000, shapeCast S800000 (extractStridedSlice S1x800000 ![1, 0] e slices_S2x800000_S1x800000_1_0) shapeCasts_S1x800000_S800000⟩, ⟨S50000, iotaInDim S50000 32 0⟩] concatenates_S800000_S50000_S850000_d0

/-- Their weights: the edge weights, then a one for each self loop. -/
def loopWeights (w : (⟨S800000, .f32⟩ : BufTy).Contents (Elt F)) : (⟨S850000, .f32⟩ : BufTy).Contents (Elt F) :=
  concatenate S850000 0 [⟨S800000, w⟩, ⟨S50000, broadcastInDim S50000 ![] bcast_S_S50000 (constant (F := F) S_ .f32 0x3F800000#32)⟩] concatenates_S800000_S50000_S850000_d0

/-- A list of node numbers as gather indices: a negative number counts from the end (50000 is added to it), and
    each becomes a one-entry index vector. -/
def asRows (v : (⟨S850000, .i32⟩ : BufTy).Contents (Elt F)) : (⟨S850000x1, .i32⟩ : BufTy).Contents (Elt F) :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The degree of every node: the weights of the messages summed at their targets, from zero. -/
def degree (e : (⟨S2x800000, .i32⟩ : BufTy).Contents (Elt F)) (w : (⟨S800000, .f32⟩ : BufTy).Contents (Elt F)) :
    (⟨S50000, .f32⟩ : BufTy).Contents (Elt F) :=
  Host.scatterAdd (F := F) scatter_S50000_S850000x1_S850000_n_0_0_1
    (broadcastInDim S50000 ![] bcast_S_S50000 (constant (F := F) S_ .f32 0x00000000#32))
    (broadcastInDim S850000x1 ![0] bcast_S850000_S850000x1_0 (targets (F := F) e)) (loopWeights w)

/-- Its inverse square root where the degree is positive, zero elsewhere. -/
def invSqrtDegree (e : (⟨S2x800000, .i32⟩ : BufTy).Contents (Elt F)) (w : (⟨S800000, .f32⟩ : BufTy).Contents (Elt F)) :
    (⟨S50000, .f32⟩ : BufTy).Contents (Elt F) :=
  select (cmpf .ogt (degree e w) (broadcastInDim S50000 ![] bcast_S_S50000 (constant (F := F) S_ .f32 0x00000000#32)))
    (Host.rsqrt (F := F) (degree e w))
    (broadcastInDim S50000 ![] bcast_S_S50000 (id (constant (F := F) S_ .f32 0x00000000#32)))

/-- The scale of each message: dinv(source) · weight · dinv(target). -/
def messageScale (e : (⟨S2x800000, .i32⟩ : BufTy).Contents (Elt F)) (w : (⟨S800000, .f32⟩ : BufTy).Contents (Elt F)) :
    (⟨S850000, .f32⟩ : BufTy).Contents (Elt F) :=
  mulf (mulf (Host.gather gather_S50000_S850000x1_S850000_n_0_n_n_0_1_1 (invSqrtDegree e w) (asRows (F := F) (sources (F := F) e))) (loopWeights w))
    (Host.gather gather_S50000_S850000x1_S850000_n_0_n_n_0_1_1 (invSqrtDegree e w) (asRows (F := F) (targets (F := F) e)))

/-- The aggregation: row h(source) of every message, scaled, summed at the message's target, from zero. -/
def aggregate (h : (⟨S50000x64, .f32⟩ : BufTy).Contents (Elt F)) (e : (⟨S2x800000, .i32⟩ : BufTy).Contents (Elt F))
    (w : (⟨S800000, .f32⟩ : BufTy).Contents (Elt F)) : (⟨S50000x64, .f32⟩ : BufTy).Contents (Elt F) :=
  Host.scatterAdd (F := F) scatter_S50000x64_S850000x1_S850000x64_1_0_0_1
    (broadcastInDim S50000x64 ![] bcast_S_S50000x64 (constant (F := F) S_ .f32 0x00000000#32))
    (broadcastInDim S850000x1 ![0] bcast_S850000_S850000x1_0 (targets (F := F) e))
    (mulf (Host.gather gather_S50000x64_S850000x1_S850000x64_1_0_n_n_0_1_164 h (asRows (F := F) (sources (F := F) e)))
      (broadcastInDim S850000x64 ![0, 1] bcast_S850000x1_S850000x64_0_1 (broadcastInDim S850000x1 ![0] bcast_S850000_S850000x1_0 (messageScale e w))))

end Cert.KernelIdeal.Flow

end
-- ==== Proof.Product.lean ====
/-
  The first kernel region. Its grid has ten points; point t stages rows 5000·t … 5000·t+4999 of the node features
  x : [50000, 64], the whole weight matrix w : [64, 64], and writes back the same rows of the product. The body
  narrows both operands to bf16 and multiplies them into a zero accumulator; over the extended reals the narrowing is
  the identity, so what point t leaves is, entry by entry, the sum over k of x(r, k) · w(k, j). The ten blocks tile
  the array, hence the array the region leaves is the whole product x·w — stated here for ANY contents the region is
  entered at.
-/
import proofs.«146622_j55259049230850_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Flow

open Cert.KernelIdeal Cert.KernelIdeal.Gen
open Idealize.ShloMosaic Idealize.ShloMosaic.TcCoe Idealize.SL.Sem
open Idealize.ShloMosaic.ValueIdx (ix2)

/-- The product of a [50000, 64] array with a [64, 64] matrix: entry (r, j) is the sum over k of x(r, k) · w(k, j). -/
def rowsTimes (x : S50000x64.Idx → EReal) (w : S64x64.Idx → EReal) : S50000x64.Idx → EReal :=
  fun i => ∑ k : Fin 64, x (ix2 (⟨(i 0).val, (i 0).isLt⟩ : Fin 50000) k) * w (ix2 k (⟨(i 1).val, (i 1).isLt⟩ : Fin 64))

/-! ## The body's product at an entry of the block -/

/-- The left operand is read at the output's row … -/
theorem prodL_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- … and the contracted column; -/
theorem prodL_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- the right operand at the contracted row … -/
theorem prodR_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- … and the output's column. -/
theorem prodR_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, j) of what the body stores: the sum over k of the row block at (p, k) times the matrix at (k, j). The two
    narrowings to bf16 are the identity on extended reals and the accumulator is zero. -/
theorem product_block (x0 : Vec Ideal S5000x64 .f32) (x1 : Vec Ideal S64x64 .f32) (y : S5000x64.Idx) :
    k0_pay1 (F := Ideal) x0 x1 y
      = ∑ k : Fin 64, x0 (ix2 (⟨(y 0).val, (y 0).isLt⟩ : Fin 5000) k) * x1 (ix2 k (⟨(y 1).val, (y 1).isLt⟩ : Fin 64)) := by
  unfold k0_pay1
  simp only [matmul]
  rw [Ideal.matmul_constant_zero_apply, ← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx y ((ValueIdx.contrEquiv1 dot_S5000x64_S64x64_S5000x64_1_0_0_1_n_n 64 rfl rfl).symm k) = ix2 (⟨(y 0).val, (y 0).isLt⟩ : Fin 5000) k := funext fun a => Fin.ext (by
    match a with
    | ⟨0, _⟩ => exact prodL_0 _ _
    | ⟨1, _⟩ => exact (prodL_1 _ _).trans hk)
  have er : dot_S5000x64_S64x64_S5000x64_1_0_0_1_n_n.rhsIdx y ((ValueIdx.contrEquiv1 dot_S5000x64_S64x64_S5000x64_1_0_0_1_n_n 64 rfl rfl).symm k) = ix2 k (⟨(y 1).val, (y 1).isLt⟩ : Fin 64) := funext fun a => Fin.ext (by
    match a with
    | ⟨0, _⟩ => exact (prodR_0 _ _).trans hk
    | ⟨1, _⟩ => exact prodR_1 _ _)
  rw [el, er]
  rfl

/-! ## From the ten blocks to the array -/

section Region
variable (V : (c : Dev nD) → (b : Ref sig .tc) → Buf (Elt Ideal) ((c : Thread nD τ).loc b))

theorem prod_offs : (![0, 0] : Fin 2 → Nat) = fun _ => 0 := funext fun a => by fin_cases a <;> rfl

/-- The printed index maps over the grid: the row-block windows sit at block row t, column block 0; the matrix's
    window never moves. -/
theorem prod_points : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is block t of the product of the arrays the region is entered at. -/
theorem product_flushed (c : Dev nD) (t : Fin cfg0.N) :
    (dat0 V c).flushed 2 t = ((cfg0.win 2).blk t).view.read (Elt Ideal) (rowsTimes (V c main_arg0) (V c main_arg3)) := by
  show (cfg0.win 2).cut (grid0.coords t) ((dat0 V c).after 2 t) = _
  rw [after0_2]
  unfold out0_2
  rw [View.canon_unit_zero prod_offs]
  simp only [View.ld_unit_zero (S := S5000x64) prod_offs, View.ld_unit_zero (S := S64x64) prod_offs]
  obtain ⟨e0, e1, e2, e3, e4, e5⟩ := prod_points t
  funext j
  show k0_pay1 (F := Ideal) (iblk0 V c 0 t) (iblk0 V c 1 t) j = rowsTimes (V c main_arg0) (V c main_arg3) (((cfg0.win 2).blk t).view.emb j)
  refine (product_block (iblk0 V c 0 t) (iblk0 V c 1 t) j).trans ?_
  refine Finset.sum_congr rfl fun k _ => ?_
  have hj0 : (j 0).val < 5000 := (j 0).isLt
  have hj1 : (j 1).val < 64 := (j 1).isLt
  have hx : iblk0 V c 0 t (ix2 (⟨(j 0).val, (j 0).isLt⟩ : Fin 5000) k)
      = V c main_arg0 (ix2 (⟨((((cfg0.win 2).blk t).view.emb j) 0).val, ((((cfg0.win 2).blk t).view.emb j) 0).isLt⟩ : Fin 50000) k) := by
    show V c main_arg0 (((cfg0.win 0).blk t).view.emb (ix2 (⟨(j 0).val, (j 0).isLt⟩ : Fin 5000) k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  have hw : iblk0 V c 1 t (ix2 k (⟨(j 1).val, (j 1).isLt⟩ : Fin 64))
      = V c main_arg3 (ix2 k (⟨((((cfg0.win 2).blk t).view.emb j) 1).val, ((((cfg0.win 2).blk t).view.emb j) 1).isLt⟩ : Fin 64)) := by
    show V c main_arg3 (((cfg0.win 1).blk t).view.emb (ix2 k (⟨(j 1).val, (j 1).isLt⟩ : Fin 64))) = _
    refine congrArg (V c main_arg3) (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  rw [hx, hw]

/-- An index of the array is in point t's block iff each coordinate is in the block's range on its axis. -/
theorem prod_mem_blk (t : Fin cfg0.N) (i : S50000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- Row r lies in the block of point r / 5000: the ten blocks cover the array. -/
theorem prod_cover (i : S50000x64.Idx) : ∃ t : Fin cfg0.N, (cfg0.win 2).flush t = true ∧ i ∈ ((cfg0.win 2).blk t).view.set := by
  have hi0 : (i 0).val < 50000 := (i 0).isLt
  have hi1 : (i 1).val < 64 := (i 1).isLt
  have hN : grid0.N = 10 := N_0
  let t : Fin cfg0.N := ⟨(i 0).val / 5000, by show (i 0).val / 5000 < grid0.N; omega⟩
  obtain ⟨e0, e1, e2, e3, e4, e5⟩ := prod_points t
  have ht : t.val = (i 0).val / 5000 := rfl
  refine ⟨t, flush0_2 t, ?_⟩
  rw [prod_mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- THE ARRAY the first region leaves: the product of the two arrays it was entered at. -/
theorem product_array (c : Dev nD) :
    (dat0 V c).arrAt 2 cfg0.N = rowsTimes (V c main_arg0) (V c main_arg3) :=
  (dat0 V c).arrAt_eq_of_cover 2 (rowsTimes (V c main_arg0) (V c main_arg3)) (fun t _ => product_flushed V c t) prod_cover

end Region

end Cert.KernelIdeal.Flow

end
-- ==== Proof.Rectified.lean ====
/-
  The second kernel region. Its grid has ten points; point t stages rows 5000·t … 5000·t+4999 of the aggregated
  messages a : [50000, 64], the bias as one row b : [1, 64], and writes back the same rows of the output. The body adds
  the bias row to every row of the block and takes the maximum with zero. So entry (r, j) of the array the region
  leaves is max(a(r, j) + b(0, j), 0) — stated here for ANY contents the region is entered at.
-/
import proofs.«146622_j55259049230850_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Flow

open Cert.KernelIdeal Cert.KernelIdeal.Gen
open Idealize.ShloMosaic Idealize.ShloMosaic.TcCoe Idealize.SL.Sem
open Idealize.ShloMosaic.ValueIdx (ix2)

/-- A [50000, 64] array plus one bias row, rectified: entry (r, j) is max(a(r, j) + b(0, j), 0). -/
def biasRelu (a : S50000x64.Idx → EReal) (b : S1x64.Idx → EReal) : S50000x64.Idx → EReal :=
  fun i => max (a i + b (ix2 (0 : Fin 1) (⟨(i 1).val, (i 1).isLt⟩ : Fin 64))) (Ideal.ofBits .f32 0x00000000#32)

/-! ## The body's value at an entry of the block -/

/-- Entry (p, j) of what the body stores: the block's entry plus the bias row's entry j, against zero. The two casts
    of the body are onto the same shape, and the row broadcast reads the one row. -/
theorem biasRelu_block (x0 : Vec Ideal S5000x64 .f32) (x1 : Vec Ideal S1x64 .f32) (p : Fin 5000) (q : Fin 64) :
    k1_pay1 (F := Ideal) x0 x1 (ix2 p q) = max (x0 (ix2 p q) + x1 (ix2 (0 : Fin 1) q)) (Ideal.ofBits .f32 0x00000000#32) := by
  unfold k1_pay1
  simp only [shapeCast_self]
  show max (x0 (ix2 p q) + broadcastTo S5000x64 x1 broadcasts_S1x64_S5000x64 (ix2 p q)) (Ideal.ofBits .f32 0x00000000#32) = _
  rw [ValueIdx.broadcastTo_1b_ab_apply]

/-! ## From the ten blocks to the array -/

section Region
variable (V : (c : Dev nD) → (b : Ref sig .tc) → Buf (Elt Ideal) ((c : Thread nD τ).loc b))

theorem relu_offs : (![0, 0] : Fin 2 → Nat) = fun _ => 0 := funext fun a => by fin_cases a <;> rfl

/-- The printed index maps over the grid: the row-block windows sit at block row t, column block 0; the bias row's
    window never moves. -/
theorem relu_points : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point t writes back is block t of the rectified sum of the arrays the region is entered at. -/
theorem biasRelu_flushed (c : Dev nD) (t : Fin cfg1.N) :
    (dat1 V c).flushed 2 t = ((cfg1.win 2).blk t).view.read (Elt Ideal) (biasRelu (V c main_v45) (V c main_v46)) := by
  show (cfg1.win 2).cut (grid1.coords t) ((dat1 V c).after 2 t) = _
  rw [after1_2]
  unfold out1_2
  rw [View.canon_unit_zero relu_offs]
  simp only [View.ld_unit_zero (S := S5000x64) relu_offs, View.ld_unit_zero (S := S1x64) relu_offs]
  obtain ⟨e0, e1, e2, e3, e4, e5⟩ := relu_points t
  funext j
  show k1_pay1 (F := Ideal) (iblk1 V c 0 t) (iblk1 V c 1 t) j = biasRelu (V c main_v45) (V c main_v46) (((cfg1.win 2).blk t).view.emb j)
  have hj0 : (j 0).val < 5000 := (j 0).isLt
  have hj1 : (j 1).val < 64 := (j 1).isLt
  obtain ⟨p, q, rfl⟩ : ∃ (p : Fin 5000) (q : Fin 64), j = ix2 p q := ⟨j 0, j 1, ValueIdx.eq_ix2 j⟩
  refine (biasRelu_block (iblk1 V c 0 t) (iblk1 V c 1 t) p q).trans ?_
  have ha : iblk1 V c 0 t (ix2 p q) = V c main_v45 (((cfg1.win 2).blk t).view.emb (ix2 p q)) := by
    show V c main_v45 (((cfg1.win 0).blk t).view.emb (ix2 p q)) = _
    refine congrArg (V c main_v45) (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 64 + 1 * q.val = win1_2.index t (1 : Fin 2) * 64 + 1 * q.val; omega
  have hb : iblk1 V c 1 t (ix2 (0 : Fin 1) q)
      = V c main_v46 (ix2 (0 : Fin 1) (⟨((((cfg1.win 2).blk t).view.emb (ix2 p q)) 1).val, ((((cfg1.win 2).blk t).view.emb (ix2 p q)) 1).isLt⟩ : Fin 64)) := by
    show V c main_v46 (((cfg1.win 1).blk t).view.emb (ix2 (0 : Fin 1) q)) = _
    refine congrArg (V c main_v46) (funext fun a => Fin.ext ?_)
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  rw [ha, hb]
  rfl

/-- An index of the array is in point t's block iff each coordinate is in the block's range on its axis. -/
theorem relu_mem_blk (t : Fin cfg1.N) (i : S50000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v47).slice (win1_2.rect t)).set ↔ _
  rw [View.set_slice_whole, Rect.mem_set_unit]
  exact Iff.rfl

/-- Row r lies in the block of point r / 5000: the ten blocks cover the array. -/
theorem relu_cover (i : S50000x64.Idx) : ∃ t : Fin cfg1.N, (cfg1.win 2).flush t = true ∧ i ∈ ((cfg1.win 2).blk t).view.set := by
  have hi0 : (i 0).val < 50000 := (i 0).isLt
  have hi1 : (i 1).val < 64 := (i 1).isLt
  have hN : grid1.N = 10 := N_1
  let t : Fin cfg1.N := ⟨(i 0).val / 5000, by show (i 0).val / 5000 < grid1.N; omega⟩
  obtain ⟨e0, e1, e2, e3, e4, e5⟩ := relu_points t
  have ht : t.val = (i 0).val / 5000 := rfl
  refine ⟨t, flush1_2 t, ?_⟩
  rw [relu_mem_blk]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 64 ≤ (i 1).val ∧ (i 1).val < win1_2.index t (1 : Fin 2) * 64 + 64; omega

/-- THE ARRAY the second region leaves: the rectified sum of the array and the bias row it was entered at. -/
theorem biasRelu_array (c : Dev nD) :
    (dat1 V c).arrAt 2 cfg1.N = biasRelu (V c main_v45) (V c main_v46) :=
  (dat1 V c).arrAt_eq_of_cover 2 (biasRelu (V c main_v45) (V c main_v46)) (fun t _ => biasRelu_flushed V c t) relu_cover

end Region

end Cert.KernelIdeal.Flow

end
-- ==== Proof.HostFlow.lean ====
/-
  The kernel program between and around its two regions. Its host operations are read back one stretch at a time:
  before the first region they leave the message sources, targets and scales (functions of the edge list and the
  weights alone); the first region leaves the product x·w; between the regions the host aggregates that product over
  the messages and lays the bias out as one row; the second region leaves the rectified sum. Composed, the result
  buffer ends at   max(aggregate(x·w) + b, 0)   of the launch contents of the five arguments.
-/
import proofs.«146622_j55259049230850_1_alg».proof.Proof.Gen.KernelIdeal.Frame
import proofs.«146622_j55259049230850_1_alg».proof.Proof.Messages
import proofs.«146622_j55259049230850_1_alg».proof.Proof.Product
import proofs.«146622_j55259049230850_1_alg».proof.Proof.Rectified
import Idealize.ShloMosaic.Lib.StableHlo.Run

set_option maxRecDepth 16384

noncomputable section

namespace Cert.KernelIdeal.Flow

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## At the first region's entry -/

/-- The node features are as launched. -/
theorem entry_features (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  dsimp only [hostOps0, hostOps0_1, hostOps0_2]
  after_results

/-- The weight matrix is as launched. -/
theorem entry_matrix (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  dsimp only [hostOps0, hostOps0_1, hostOps0_2]
  after_results

/-- The bias is as launched. -/
theorem entry_bias (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  dsimp only [hostOps0, hostOps0_1, hostOps0_2]
  after_results

/-- The message sources are those of the launched edge list. -/
theorem entry_sources (c : Dev nD) :
    W3 m ρ c (Proc.devRef .tc main_v3) = sources (F := Ideal) (m ((c : Thread nD τ).loc main_arg1)) := by
  show StableHlo.after hostOps0_2 (StableHlo.after hostOps0_1 (StableHlo.after hostOps0 (W0 m ρ c))) (Proc.devRef .tc main_v3) = _
  dsimp only [hostOps0, hostOps0_1, hostOps0_2]
  after_results
  rfl

/-- The message targets are those of the launched edge list. -/
theorem entry_targets (c : Dev nD) :
    W3 m ρ c (Proc.devRef .tc main_v6) = targets (F := Ideal) (m ((c : Thread nD τ).loc main_arg1)) := by
  show StableHlo.after hostOps0_2 (StableHlo.after hostOps0_1 (StableHlo.after hostOps0 (W0 m ρ c))) (Proc.devRef .tc main_v6) = _
  dsimp only [hostOps0, hostOps0_1, hostOps0_2]
  after_results
  rfl

/-! ### The scales, stretch by stretch

The first nineteen operations leave the weights with their self loops, the mask of the nodes of positive degree and the
inverse square root of every degree; the three operations of the selection make the normalising factor of every
node; the next twenty gather it at the two ends of every message and multiply. -/

/-- After the first stretch: the sources … -/
theorem first_sources (c : Dev nD) : W1 m ρ c (Proc.devRef .tc main_v3) = sources (F := Ideal) (m ((c : Thread nD τ).loc main_arg1)) := by
  show StableHlo.after hostOps0 (W0 m ρ c) (Proc.devRef .tc main_v3) = _
  dsimp only [hostOps0]
  after_results
  rfl
/-- … the targets … -/
theorem first_targets (c : Dev nD) : W1 m ρ c (Proc.devRef .tc main_v6) = targets (F := Ideal) (m ((c : Thread nD τ).loc main_arg1)) := by
  show StableHlo.after hostOps0 (W0 m ρ c) (Proc.devRef .tc main_v6) = _
  dsimp only [hostOps0]
  after_results
  rfl
/-- … the weights with a one for each self loop … -/
theorem first_weights (c : Dev nD) : W1 m ρ c (Proc.devRef .tc main_v8) = loopWeights (F := Ideal) (m ((c : Thread nD τ).loc main_arg2)) := by
  show StableHlo.after hostOps0 (W0 m ρ c) (Proc.devRef .tc main_v8) = _
  dsimp only [hostOps0]
  after_results
  rfl
/-- … which nodes have positive degree … -/
theorem first_positive (c : Dev nD) :
    W1 m ρ c (Proc.devRef .tc main_v13) = cmpf .ogt (degree (F := Ideal) (m ((c : Thread nD τ).loc main_arg1)) (m ((c : Thread nD τ).loc main_arg2))) (broadcastInDim S50000 ![] bcast_S_S50000 (constant (F := Ideal) S_ .f32 0x00000000#32)) := by
  show StableHlo.after hostOps0 (W0 m ρ c) (Proc.devRef .tc main_v13) = _
  dsimp only [hostOps0]
  after_results
  rfl
/-- … the inverse square root of every degree … -/
theorem first_rsqrt (c : Dev nD) :
    W1 m ρ c (Proc.devRef .tc main_v14) = Host.rsqrt (F := Ideal) (s := S50000) (φ := .f32) (degree (F := Ideal) (m ((c : Thread nD τ).loc main_arg1)) (m ((c : Thread nD τ).loc main_arg2))) := by
  show StableHlo.after hostOps0 (W0 m ρ c) (Proc.devRef .tc main_v14) = _
  dsimp only [hostOps0]
  after_results
  rfl
/-- … and the zero the selection falls back to. -/
theorem first_zero (c : Dev nD) : W1 m ρ c (Proc.devRef .tc main_cst_2) = constant (F := Ideal) S_ .f32 0x00000000#32 := by
  show StableHlo.after hostOps0 (W0 m ρ c) (Proc.devRef .tc main_cst_2) = _
  dsimp only [hostOps0]
  after_results

/-- The three operations of the selection over ANY contents: where the mask holds the first operand's entry is kept,
    elsewhere the scalar is, repeated along the nodes. (Stated over variables: the operations are printed through typed
    references, whose conversions are identities.) -/
theorem selection_over (U : Valuation τ sig (Elt Ideal))
    (p : (⟨S50000, .i1⟩ : BufTy).Contents (Elt Ideal)) (r : (⟨S50000, .f32⟩ : BufTy).Contents (Elt Ideal))
    (z : (⟨S_, .f32⟩ : BufTy).Contents (Elt Ideal))
    (hp : U (Proc.devRef .tc main_v13) = p) (hr : U (Proc.devRef .tc main_v14) = r) (hz : U (Proc.devRef .tc main_cst_2) = z) :
    StableHlo.after hostOps0_1 U (Proc.devRef .tc main_v15) = select p r (broadcastInDim S50000 ![] bcast_S_S50000 (id z)) := by
  dsimp only [hostOps0_1]
  after_results
  rw [hp, hr, hz]
  rfl

/-- After the selection: the normalising factor of every node, the message lists and weights carried over. -/
theorem second_factor (c : Dev nD) :
    W2 m ρ c (Proc.devRef .tc main_v15) = invSqrtDegree (F := Ideal) (m ((c : Thread nD τ).loc main_arg1)) (m ((c : Thread nD τ).loc main_arg2)) :=
  (selection_over (W1 m ρ c) _ _ _ (first_positive m ρ c) (first_rsqrt m ρ c) (first_zero m ρ c)).trans rfl
theorem second_sources (c : Dev nD) : W2 m ρ c (Proc.devRef .tc main_v3) = sources (F := Ideal) (m ((c : Thread nD τ).loc main_arg1)) := by
  have h := first_sources m ρ c
  show StableHlo.after hostOps0_1 (W1 m ρ c) (Proc.devRef .tc main_v3) = _
  generalize W1 m ρ c = U at h ⊢
  dsimp only [hostOps0_1]
  after_results
  exact h
theorem second_targets (c : Dev nD) : W2 m ρ c (Proc.devRef .tc main_v6) = targets (F := Ideal) (m ((c : Thread nD τ).loc main_arg1)) := by
  have h := first_targets m ρ c
  show StableHlo.after hostOps0_1 (W1 m ρ c) (Proc.devRef .tc main_v6) = _
  generalize W1 m ρ c = U at h ⊢
  dsimp only [hostOps0_1]
  after_results
  exact h
theorem second_weights (c : Dev nD) : W2 m ρ c (Proc.devRef .tc main_v8) = loopWeights (F := Ideal) (m ((c : Thread nD τ).loc main_arg2)) := by
  have h := first_weights m ρ c
  show StableHlo.after hostOps0_1 (W1 m ρ c) (Proc.devRef .tc main_v8) = _
  generalize W1 m ρ c = U at h ⊢
  dsimp only [hostOps0_1]
  after_results
  exact h

set_option maxHeartbeats 2000000 in
/-- The message scales are those of the launched edge list and weights. -/
theorem entry_scale (c : Dev nD) :
    W3 m ρ c (Proc.devRef .tc main_v31)
      = messageScale (F := Ideal) (m ((c : Thread nD τ).loc main_arg1)) (m ((c : Thread nD τ).loc main_arg2)) := by
  have h15 := second_factor m ρ c
  have h3 := second_sources m ρ c
  have h6 := second_targets m ρ c
  have h8 := second_weights m ρ c
  show StableHlo.after hostOps0_2 (W2 m ρ c) (Proc.devRef .tc main_v31) = _
  generalize W2 m ρ c = U at h15 h3 h6 h8 ⊢
  dsimp only [hostOps0_2]
  after_results
  rw [h15, h3, h6, h8]
  rfl

/-! ## At the first region's exit -/

/-- The first region leaves the product of the launched features and weight matrix. -/
theorem exit_product (c : Dev nD) :
    W4 m ρ c (Proc.devRef .tc main_v32)
      = rowsTimes (m ((c : Thread nD τ).loc main_arg0)) (m ((c : Thread nD τ).loc main_arg3)) := by
  refine (W4_arr m ρ c 2).trans ((product_array (V3 m ρ) c).trans ?_)
  show rowsTimes (W3 m ρ c (Proc.devRef .tc main_arg0)) (W3 m ρ c (Proc.devRef .tc main_arg3)) = _
  rw [entry_features, entry_matrix]

/-! ## At the second region's entry -/

set_option maxHeartbeats 4000000 in
/-- The host aggregates the product over the messages. -/
theorem entry_aggregate (c : Dev nD) :
    W5 m ρ c (Proc.devRef .tc main_v45)
      = aggregate (F := Ideal) (rowsTimes (m ((c : Thread nD τ).loc main_arg0)) (m ((c : Thread nD τ).loc main_arg3)))
          (m ((c : Thread nD τ).loc main_arg1)) (m ((c : Thread nD τ).loc main_arg2)) := by
  have e3 : W4 m ρ c (Proc.devRef .tc main_v3) = sources (F := Ideal) (m ((c : Thread nD τ).loc main_arg1)) :=
    (W4_of_ne m ρ c main_v3 (by decide)).trans (entry_sources m ρ c)
  have e6 : W4 m ρ c (Proc.devRef .tc main_v6) = targets (F := Ideal) (m ((c : Thread nD τ).loc main_arg1)) :=
    (W4_of_ne m ρ c main_v6 (by decide)).trans (entry_targets m ρ c)
  have e31 : W4 m ρ c (Proc.devRef .tc main_v31)
      = messageScale (F := Ideal) (m ((c : Thread nD τ).loc main_arg1)) (m ((c : Thread nD τ).loc main_arg2)) :=
    (W4_of_ne m ρ c main_v31 (by decide)).trans (entry_scale m ρ c)
  have e32 := exit_product m ρ c
  show StableHlo.after hostOps1 (W4 m ρ c) (Proc.devRef .tc main_v45) = _
  dsimp only [hostOps1]
  after_results_simp
  rw [e3, e6, e31, e32]
  rfl

/-- The bias is laid out as one row. -/
theorem entry_biasRow (c : Dev nD) :
    W5 m ρ c (Proc.devRef .tc main_v46) = shapeCast S1x64 (m ((c : Thread nD τ).loc main_arg4)) shapeCasts_S64_S1x64 := by
  have e4 : W4 m ρ c (Proc.devRef .tc main_arg4) = m ((c : Thread nD τ).loc main_arg4) :=
    (W4_of_ne m ρ c main_arg4 (by decide)).trans (entry_bias m ρ c)
  show StableHlo.after hostOps1 (W4 m ρ c) (Proc.devRef .tc main_v46) = _
  dsimp only [hostOps1]
  after_results
  rw [e4]
  rfl

/-! ## The result -/

/-- THE RESULT BUFFER at the last segment boundary, as a function of the launch contents of the arguments. -/
theorem result_value (c : Dev nD) :
    W6 m ρ c (Proc.devRef .tc main_v47)
      = biasRelu (aggregate (F := Ideal) (rowsTimes (m ((c : Thread nD τ).loc main_arg0)) (m ((c : Thread nD τ).loc main_arg3)))
            (m ((c : Thread nD τ).loc main_arg1)) (m ((c : Thread nD τ).loc main_arg2)))
          (shapeCast S1x64 (m ((c : Thread nD τ).loc main_arg4)) shapeCasts_S64_S1x64) := by
  refine (W6_arr m ρ c 2).trans ((biasRelu_array (V5 m ρ) c).trans ?_)
  show biasRelu (W5 m ρ c (Proc.devRef .tc main_v45)) (W5 m ρ c (Proc.devRef .tc main_v46)) = _
  rw [entry_aggregate, entry_biasRow]

end Cert.KernelIdeal.Flow

end
-- ==== Proof.Reference.lean ====
/-
  The reference program's result as the same function of the arguments. Its stages, read one at a time: the matrix
  product x·w is, entry by entry, the sum over k of x(r, k) · w(k, j); the aggregation over the messages is the very
  chain of operations the kernel program applies on its host; the bias, laid out as a row and repeated down the rows,
  adds b(j) to entry (r, j); and the final maximum is against zero. So the result is max(aggregate(x·w) + b, 0).
-/
import proofs.«146622_j55259049230850_1_alg».proof.Proof.Gen.ReferenceIdeal.Read
import proofs.«146622_j55259049230850_1_alg».proof.Proof.Messages
import proofs.«146622_j55259049230850_1_alg».proof.Proof.Product
import proofs.«146622_j55259049230850_1_alg».proof.Proof.Rectified
import Idealize.ShloMosaic.Lib.ValueLayout

set_option maxRecDepth 16384

noncomputable section

namespace Cert.ReferenceIdeal.Bridge

open Cert.ReferenceIdeal Cert.ReferenceIdeal.Read
open Idealize.ShloMosaic
open Idealize.ShloMosaic.ValueIdx (ix1 ix2)

/-- The reference's matrix product is the sum over the contracted index, entry by entry. -/
theorem product_stage (x0 : (⟨S50000x64, .f32⟩ : BufTy).Contents (Elt Ideal)) (x3 : (⟨S64x64, .f32⟩ : BufTy).Contents (Elt Ideal)) :
    val_main_v32 (F := Ideal) x0 x3 = Cert.KernelIdeal.Flow.rowsTimes x0 x3 := by
  funext i
  rw [val_main_v32_apply]
  unfold Cert.KernelIdeal.Flow.rowsTimes
  refine Finset.sum_congr rfl fun k _ => ?_
  have hl : lidx_main_v32 i k = ix2 (⟨(i 0).val, (i 0).isLt⟩ : Fin 50000) k :=
    funext fun a => by match a with | ⟨0, _⟩ => rfl | ⟨1, _⟩ => rfl
  have hr : ridx_main_v32 i k = ix2 k (⟨(i 1).val, (i 1).isLt⟩ : Fin 64) :=
    funext fun a => by match a with | ⟨0, _⟩ => rfl | ⟨1, _⟩ => rfl
  rw [hl, hr]

/-- The reference aggregates its product by the same operations as the kernel program's host. -/
theorem aggregate_stage (x0 : (⟨S50000x64, .f32⟩ : BufTy).Contents (Elt Ideal)) (x1 : (⟨S2x800000, .i32⟩ : BufTy).Contents (Elt Ideal))
    (x2 : (⟨S800000, .f32⟩ : BufTy).Contents (Elt Ideal)) (x3 : (⟨S64x64, .f32⟩ : BufTy).Contents (Elt Ideal)) :
    val_main_v45 (F := Ideal) x0 x1 x2 x3
      = Cert.KernelIdeal.Flow.aggregate (F := Ideal) (val_main_v32 (F := Ideal) x0 x3) x1 x2 := rfl

/-- THE REFERENCE'S RESULT as a function of the arguments: the rectified sum of the aggregated product and the bias. -/
theorem stages_value (x0 : (⟨S50000x64, .f32⟩ : BufTy).Contents (Elt Ideal)) (x1 : (⟨S2x800000, .i32⟩ : BufTy).Contents (Elt Ideal))
    (x2 : (⟨S800000, .f32⟩ : BufTy).Contents (Elt Ideal)) (x3 : (⟨S64x64, .f32⟩ : BufTy).Contents (Elt Ideal))
    (x4 : (⟨S64, .f32⟩ : BufTy).Contents (Elt Ideal)) :
    val_main_v49 (F := Ideal) x0 x1 x2 x3 x4
      = Cert.KernelIdeal.Flow.biasRelu
          (Cert.KernelIdeal.Flow.aggregate (F := Ideal) (Cert.KernelIdeal.Flow.rowsTimes x0 x3) x1 x2)
          (shapeCast Cert.KernelIdeal.S1x64 x4 Cert.KernelIdeal.Gen.shapeCasts_S64_S1x64) := by
  funext i
  rw [val_main_v49_apply, val_main_v48_apply, val_main_call1_v0_apply, val_main_call1_cst_apply, val_main_v47_apply,
    val_main_v46_apply, aggregate_stage, product_stage]
  unfold Cert.KernelIdeal.Flow.biasRelu
  have hi : idx_main_v46 (idx_main_v47 i) = ix1 (⟨(i 1).val, (i 1).isLt⟩ : Fin 64) :=
    funext fun a => by match a with | ⟨0, _⟩ => rfl
  rw [hi, ValueIdx.shapeCast_a_1a_apply]
  rfl

end Cert.ReferenceIdeal.Bridge

end
-- ==== Proof.lean ====
/-
  A graph convolution layer with self loops and symmetric normalisation: the node features x : [50000, 64] are
  multiplied by a weight matrix w : [64, 64]; every edge (s, d) of weight u, and a self loop of weight one at every node,
  sends row (x·w)(s) scaled by dinv(s) · u · dinv(d) to node d, where dinv is the inverse square root of a node's summed
  incoming weight (zero where that sum is not positive); each node sums what it receives, adds the bias b : [64] and
  keeps the positive part.

  The kernel program computes x·w in a first kernel region, ten blocks of 5000 rows, narrowing the operands to bf16
  on the way into the matrix unit; normalises and aggregates on the host; and adds the bias and rectifies in a second
  region over the same ten blocks. The reference does everything on the host. Over the extended reals the narrowing
  is the identity and a product of matrices is the sum over the contracted index in both programs, the host operations
  between are the same operations applied to the same edge list and weights, and the bias added as a row inside the
  region is the bias repeated down the rows outside it. So both results are
      max(aggregate(x·w) + b, 0),
  entry by entry, with no law of arithmetic needed beyond reading each side: the input's finiteness is not used.
  The idealised kernel program is the printed one read over the extended reals (no rewrite was applied), so that
  conjunct holds trivially; the three frames are the generated ones.
-/
import proofs.«146622_j55259049230850_1_alg».proof.Defs
import proofs.«146622_j55259049230850_1_alg».proof.Proof.Gen.Kernel
import proofs.«146622_j55259049230850_1_alg».proof.Proof.Gen.Kernel.Skeleton
import proofs.«146622_j55259049230850_1_alg».proof.Proof.Gen.Kernel.Launch
import proofs.«146622_j55259049230850_1_alg».proof.Proof.Gen.Kernel.Points
import proofs.«146622_j55259049230850_1_alg».proof.Proof.Gen.Kernel.Frame
import proofs.«146622_j55259049230850_1_alg».proof.Proof.Gen.KernelIdeal
import proofs.«146622_j55259049230850_1_alg».proof.Proof.Gen.KernelIdeal.Skeleton
import proofs.«146622_j55259049230850_1_alg».proof.Proof.Gen.KernelIdeal.Launch
import proofs.«146622_j55259049230850_1_alg».proof.Proof.Gen.KernelIdeal.Points
import proofs.«146622_j55259049230850_1_alg».proof.Proof.Gen.KernelIdeal.Frame
import proofs.«146622_j55259049230850_1_alg».proof.Proof.Gen.ReferenceIdeal
import proofs.«146622_j55259049230850_1_alg».proof.Proof.Gen.Pre_finite_inputs
import proofs.«146622_j55259049230850_1_alg».proof.Proof.Gen.ReferenceIdeal.Run
import proofs.«146622_j55259049230850_1_alg».proof.Proof.Gen.ReferenceIdeal.Read
import Idealize.ShloMosaic.Adequacy
import Idealize.ShloMosaic.Init
import proofs.«146622_j55259049230850_1_alg».proof.Proof.Launched
import proofs.«146622_j55259049230850_1_alg».proof.Proof.HostFlow
import proofs.«146622_j55259049230850_1_alg».proof.Proof.Reference

noncomputable section

namespace Cert.Proof

open Idealize.ShloMosaic Idealize.SL.Sem

/-- Every weakly fair execution of the idealised kernel program ends with the result at the rectified sum of the
    aggregated product and the bias, of the launch contents of the arguments, and the arguments as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v47)
        = Cert.KernelIdeal.Flow.biasRelu
            (Cert.KernelIdeal.Flow.aggregate (F := Ideal)
              (Cert.KernelIdeal.Flow.rowsTimes (m ((c.tc : Thread Cert.KernelIdeal.nD Cert.KernelIdeal.τ).loc Cert.KernelIdeal.main_arg0)) (m ((c.tc : Thread Cert.KernelIdeal.nD Cert.KernelIdeal.τ).loc Cert.KernelIdeal.main_arg3)))
              (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
            (shapeCast Cert.KernelIdeal.S1x64 (m ((c.tc : Thread Cert.KernelIdeal.nD Cert.KernelIdeal.τ).loc Cert.KernelIdeal.main_arg4)) Cert.KernelIdeal.Gen.shapeCasts_S64_S1x64)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono
    (fun r h c => ⟨(h c).1.trans (Cert.KernelIdeal.Flow.result_value m ρ c), (h c).2⟩)
    (Cert.KernelIdeal.Flow.run_named (F := Ideal) m ρ)

/-- The two idealised programs, run from memories that agree on the arguments, end with equal results: both are the
    rectified sum of the aggregated product and the bias. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.ReferenceIdeal.Bridge.stages_value,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
